-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200x200x64 : Shape := ⟨4, ![32, 200, 200, 64]⟩
abbrev S_ : Shape := ⟨0, ![]⟩

class Facts : Prop where
  bcast_S_S32x200x200x64 : S_.BroadcastsInDim S32x200x200x64 (![] : Fin 0 → Fin S32x200x200x64.rank)
  reducesTo_S32x200x200x64_S_d0_1_2_3 : S32x200x200x64.ReducesTo [0, 1, 2, 3] S_
  h_S_ : 0 < S_.numel

variable [Facts]

def fn {F : FTy → Type} [FloatOps F] (main_arg0 : FVec F S32x200x200x64 .f32) : IVec S_ 1 :=
  let main_v0 : FVec F S32x200x200x64 .f32 := Host.absf main_arg0
  let main_cst : FVec F S_ .f32 := constant S_ .f32 0x7F800000#32
  let main_v1 : FVec F S32x200x200x64 .f32 := broadcastInDim S32x200x200x64 ![] bcast_S_S32x200x200x64 main_cst
  let main_v2 : IVec S32x200x200x64 1 := cmpf .olt main_v0 main_v1
  let main_c : IVec S_ 1 := constantI S_ 1 1#1
  let main_v3 : IVec S_ 1 := (fun x v => Host.reduce IntOp.andi x v reducesTo_S32x200x200x64_S_d0_1_2_3 h_S_) main_v2 main_c
  main_v3
-- ==== Kernel.lean ====
abbrev S32x200x200x64 : Shape := ⟨4, ![32, 200, 200, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S32x400x400x16 : Shape := ⟨4, ![32, 400, 400, 16]⟩
abbrev S1x100x200x64 : Shape := ⟨4, ![1, 100, 200, 64]⟩
abbrev S1x100x400x16 : Shape := ⟨4, ![1, 100, 400, 16]⟩
abbrev S100x200x64 : Shape := ⟨3, ![100, 200, 64]⟩
abbrev S20000x64 : Shape := ⟨2, ![20000, 64]⟩
abbrev S100x200x16 : Shape := ⟨3, ![100, 200, 16]⟩
abbrev S1x100x200x16 : Shape := ⟨4, ![1, 100, 200, 16]⟩

abbrev nBuf : Space → Nat
  | .hbm => 53
  | .vmem => 5
  | .smem => 0
  | _ => 0

abbrev bufTy : (tb : Table) → Fin (tcTables nBuf tb) → BufTy
  | .hbm, ⟨0, _⟩ => ⟨S32x200x200x64, .f32⟩
  | .hbm, ⟨1, _⟩ => ⟨S64, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S_, .i1⟩
  | .hbm, ⟨18, _⟩ => ⟨S64, .i1⟩
  | .hbm, ⟨19, _⟩ => ⟨S64, .i1⟩
  | .hbm, ⟨20, _⟩ => ⟨S64, .i1⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S64x1, .i32⟩
  | .hbm, ⟨47, _⟩ => ⟨S1x64, .i32⟩
  | .hbm, ⟨48, _⟩ => ⟨S64x64, .i32⟩
  | .hbm, ⟨49, _⟩ => ⟨S64x64, .i32⟩
  | .hbm, ⟨50, _⟩ => ⟨S64x64, .i1⟩
  | .hbm, ⟨51, _⟩ => ⟨S64x64, .f32⟩
  | .hbm, ⟨52, _⟩ => ⟨S32x400x400x16, .f32⟩
  | .local _ .vmem, ⟨0, _⟩ => ⟨S1x100x200x64, .f32⟩
  | .local _ .vmem, ⟨1, _⟩ => ⟨S1x100x200x64, .f32⟩
  | .local _ .vmem, ⟨2, _⟩ => ⟨S64x64, .f32⟩
  | .local _ .vmem, ⟨3, _⟩ => ⟨S1x100x400x16, .f32⟩
  | .local _ .vmem, ⟨4, _⟩ => ⟨S1x100x400x16, .f32⟩
  | _, _ => ⟨S32x200x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v6 : Ref sig .tc := ⟨.hbm, 51, rfl⟩
abbrev main_v7 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 2, 2], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  let c0_i32_0 : BitVec 32 := 0#32
  let c0_i32_1 : BitVec 32 := 0#32
  ![arg0.toNat, v1.toNat, c0_i32.toNat, c0_i32_0.toNat]

abbrev stage0_0 : Fin 2 → Memref sig .tc .vmem S1x100x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x100x400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  inb_S1x100x200x64_S1x100x200x64_0_0_0_0 : ∀ a, (![0, 0, 0, 0] : Fin 4 → Nat) a + S1x100x200x64.size a ≤ S1x100x200x64.size a
  h_S1x100x200x64 : 0 < S1x100x200x64.numel
  shapeCasts_S1x100x200x64_S100x200x64 : S1x100x200x64.ShapeCasts S100x200x64
  shapeCasts_S100x200x64_S20000x64 : S100x200x64.ShapeCasts S20000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S20000x64_S100x200x64 : S20000x64.ShapeCasts S100x200x64
  slices_S100x200x64_o0_0_0_S100x200x16 : S100x200x64.Slices ![0, 0, 0] S100x200x16
  inb_S1x100x400x16_S1x100x200x16_0_0_0_0 : ∀ a, (![0, 0, 0, 0] : Fin 4 → Nat) a + S1x100x200x16.size a ≤ S1x100x400x16.size a
  h_S1x100x200x16 : 0 < S1x100x200x16.numel
  shapeCasts_S1x100x200x16_S100x200x16 : S1x100x200x16.ShapeCasts S100x200x16
  shapeCasts_S100x200x16_S1x100x200x16 : S100x200x16.ShapeCasts S1x100x200x16
  slices_S100x200x64_o0_0_16_S100x200x16 : S100x200x64.Slices ![0, 0, 16] S100x200x16
  inb_S1x100x400x16_S1x100x200x16_0_0_200_0 : ∀ a, (![0, 0, 200, 0] : Fin 4 → Nat) a + S1x100x200x16.size a ≤ S1x100x400x16.size a
  slices_S100x200x64_o0_0_32_S100x200x16 : S100x200x64.Slices ![0, 0, 32] S100x200x16
  slices_S100x200x64_o0_0_48_S100x200x16 : S100x200x64.Slices ![0, 0, 48] S100x200x16
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x200x64.size a ≤ S32x200x200x64.size a
  hwx0_0 : ∀ i : grid0.Coords, EltTy.bits .f32 = 32 ∨ (Rect.block (s := S32x200x200x64) S1x100x200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x400x16.size a ≤ S32x400x400x16.size a
  hwx0_2 : ∀ i : grid0.Coords, EltTy.bits .f32 = 32 ∨ (Rect.block (s := S32x400x400x16) S1x100x400x16.size (cc0_transform_2 i) (hinb0_2 i)).WholeWords (EltTy.packing .f32)

variable [Facts₀]

def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_arg0) S1x100x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x100x400x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x200x200x64 : Shape := ⟨4, ![32, 200, 200, 64]⟩
abbrev S32x200x200x16x4 : Shape := ⟨5, ![32, 200, 200, 16, 4]⟩
abbrev S32x16x4x200x200 : Shape := ⟨5, ![32, 16, 4, 200, 200]⟩
abbrev S32x16x2x200x200 : Shape := ⟨5, ![32, 16, 2, 200, 200]⟩
abbrev S32x16x200x2x200 : Shape := ⟨5, ![32, 16, 200, 2, 200]⟩
abbrev S32x16x200x400 : Shape := ⟨4, ![32, 16, 200, 400]⟩
abbrev S32x16x400x400 : Shape := ⟨4, ![32, 16, 400, 400]⟩
abbrev S32x400x400x16 : Shape := ⟨4, ![32, 400, 400, 16]⟩

abbrev nBuf : Space → Nat
  | .hbm => 11
  | .vmem => 0
  | .smem => 0
  | _ => 0

abbrev bufTy : (tb : Table) → Fin (tcTables nBuf tb) → BufTy
  | .hbm, ⟨0, _⟩ => ⟨S32x200x200x64, .f32⟩
  | .hbm, ⟨1, _⟩ => ⟨S32x200x200x16x4, .f32⟩
  | .hbm, ⟨2, _⟩ => ⟨S32x16x4x200x200, .f32⟩
  | .hbm, ⟨3, _⟩ => ⟨S32x16x2x200x200, .f32⟩
  | .hbm, ⟨4, _⟩ => ⟨S32x16x200x2x200, .f32⟩
  | .hbm, ⟨5, _⟩ => ⟨S32x16x200x400, .f32⟩
  | .hbm, ⟨6, _⟩ => ⟨S32x16x2x200x200, .f32⟩
  | .hbm, ⟨7, _⟩ => ⟨S32x16x200x2x200, .f32⟩
  | .hbm, ⟨8, _⟩ => ⟨S32x16x200x400, .f32⟩
  | .hbm, ⟨9, _⟩ => ⟨S32x16x400x400, .f32⟩
  | .hbm, ⟨10, _⟩ => ⟨S32x400x400x16, .f32⟩
  | _, _ => ⟨S32x200x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩

abbrev nD : Nat := 1
abbrev τ : Topo := Topo.v7x

variable {F : FTy → Type} [FloatOps F]

class Facts₀ : Prop where
  shapeCasts_S32x200x200x64_S32x200x200x16x4 : S32x200x200x64.ShapeCasts S32x200x200x16x4
  transposes_S32x200x200x16x4_S32x16x4x200x200_0_3_4_1_2 : S32x200x200x16x4.Transposes [0, 3, 4, 1, 2] S32x16x4x200x200
  slices_S32x16x4x200x200_S32x16x2x200x200_0_0_0_0_0 : S32x16x4x200x200.Slices ![0, 0, 0, 0, 0] S32x16x2x200x200
  transposes_S32x16x2x200x200_S32x16x200x2x200_0_1_3_2_4 : S32x16x2x200x200.Transposes [0, 1, 3, 2, 4] S32x16x200x2x200
  shapeCasts_S32x16x200x2x200_S32x16x200x400 : S32x16x200x2x200.ShapeCasts S32x16x200x400
  slices_S32x16x4x200x200_S32x16x2x200x200_0_0_2_0_0 : S32x16x4x200x200.Slices ![0, 0, 2, 0, 0] S32x16x2x200x200
  concatenates_S32x16x200x400_S32x16x200x400_S32x16x400x400_d2 : Shape.Concatenates [S32x16x200x400, S32x16x200x400] S32x16x400x400 2
  transposes_S32x16x400x400_S32x400x400x16_0_2_3_1 : S32x16x400x400.Transposes [0, 2, 3, 1] S32x400x400x16

variable [Facts₀]

class Facts : Prop extends Facts₀ where

variable [Facts]
-- ==== Proof.Shuffle.lean ====
/-
  Depth-to-space with block size two over f32[32, 200, 200, 64]: output channel c of the result f32[32, 400, 400, 16]
  gathers the four input channels 4c, 4c+1, 4c+2, 4c+3 into the four quadrants of the doubled image. The result at
  (b, ro, co, c) is the input at (b, ro mod 200, co mod 200, 4c + 2 (ro / 200) + co / 200): the quadrant number is
  2 (ro / 200) + co / 200. This module states that index map (`src`), the function `shuffle` it induces on arrays over any
  element type, and proves that the reference's chain of layout operations — reshape to [.., 16, 4], transpose, the two
  channel-pair slices, transpose, reshape to rows of 400, the join of the two halves along the rows, and the final
  transpose that brings the channel last — is `shuffle`, index by index. No arithmetic on the elements is involved.
-/
import proofs.«175606_j6734508720545_1_alg».proof.Proof.Gen.ReferenceIdeal.Read
import Idealize.ShloMosaic.Lib.ValueIdx
import Idealize.ShloMosaic.Lib.Pipeline.Value

noncomputable section

namespace Cert.Shuffle

open Idealize.ShloMosaic Idealize.ShloMosaic.TcCoe

/-- The input array's shape and the result's. -/
abbrev SIn : Shape := ⟨4, ![32, 200, 200, 64]⟩
abbrev SOut : Shape := ⟨4, ![32, 400, 400, 16]⟩

/-- Where the result's entry `i = (b, ro, co, c)` comes from: `(b, ro mod 200, co mod 200, 4c + 2 (ro / 200) + co / 200)`. -/
def src (i : SOut.Idx) : SIn.Idx := fun a => match a with
  | ⟨0, _⟩ => ⟨(i 0).val, (i 0).isLt⟩
  | ⟨1, _⟩ => ⟨(i 1).val % 200, by show (i 1).val % 200 < 200; omega⟩
  | ⟨2, _⟩ => ⟨(i 2).val % 200, by show (i 2).val % 200 < 200; omega⟩
  | ⟨3, _⟩ => ⟨4 * (i 3).val + 2 * ((i 1).val / 200) + (i 2).val / 200, by
      have h1 : (i 1).val < 400 := (i 1).isLt; have h2 : (i 2).val < 400 := (i 2).isLt; have h3 : (i 3).val < 16 := (i 3).isLt
      show 4 * (i 3).val + 2 * ((i 1).val / 200) + (i 2).val / 200 < 64; omega⟩

/-- Depth-to-space as a function of the whole input array. -/
def shuffle {α : Type} (x : SIn.Idx → α) : SOut.Idx → α := fun i => x (src i)

theorem shuffle_apply {α : Type} (x : SIn.Idx → α) (i : SOut.Idx) : shuffle x i = x (src i) := rfl

/-! ### Row-major arithmetic of the two reshapes -/

/-- A position of [32, 16, 200, 400] splits its last coordinate `w` as `(w / 200, w mod 200)` in [32, 16, 200, 2, 200]. -/
theorem split_cols (b c r w : ℕ) (hc : c < 16) (hr : r < 200) (hw : w < 400) :
    (((b * 16 + c) * 200 + r) * 400 + w) / 1280000 = b
    ∧ (((b * 16 + c) * 200 + r) * 400 + w) / 80000 % 16 = c
    ∧ (((b * 16 + c) * 200 + r) * 400 + w) / 400 % 200 = r
    ∧ (((b * 16 + c) * 200 + r) * 400 + w) / 200 % 2 = w / 200
    ∧ (((b * 16 + c) * 200 + r) * 400 + w) % 200 = w % 200 := by
  refine ⟨?_, ?_, ?_, ?_, ?_⟩ <;> omega

/-- A position of [32, 200, 200, 16, 4] merges its last two coordinates `(c, q)` as `4c + q` in [32, 200, 200, 64]. -/
theorem merge_chan (b r cc c q : ℕ) (hr : r < 200) (hcc : cc < 200) (hc : c < 16) (hq : q < 4) :
    ((((b * 200 + r) * 200 + cc) * 16 + c) * 4 + q) / 2560000 = b
    ∧ ((((b * 200 + r) * 200 + cc) * 16 + c) * 4 + q) / 12800 % 200 = r
    ∧ ((((b * 200 + r) * 200 + cc) * 16 + c) * 4 + q) / 64 % 200 = cc
    ∧ ((((b * 200 + r) * 200 + cc) * 16 + c) * 4 + q) % 64 = 4 * c + q := by
  refine ⟨?_, ?_, ?_, ?_⟩ <;> omega

end Cert.Shuffle

namespace Cert.ReferenceIdeal.RefValue

open Cert.ReferenceIdeal Cert.ReferenceIdeal.Gen Cert.ReferenceIdeal.Read Idealize.ShloMosaic Idealize.ShloMosaic.TcCoe Cert.Shuffle

variable {F : FTy → Type} [FloatOps F]

/-- The index of the top half (rows below 200 of the joined array) that the join reads at `(b, c, ro, co)`. -/
def topIdx (i : SOut.Idx) (h : (i 1).val < 200) : S32x16x200x400.Idx := fun a => match a with
  | ⟨0, _⟩ => ⟨(i 0).val, (i 0).isLt⟩
  | ⟨1, _⟩ => ⟨(i 3).val, (i 3).isLt⟩
  | ⟨2, _⟩ => ⟨(i 1).val, h⟩
  | ⟨3, _⟩ => ⟨(i 2).val, (i 2).isLt⟩

/-- The index of the bottom half: the row less the top half's 200 rows. -/
def botIdx (i : SOut.Idx) (h : 200 ≤ (i 1).val) : S32x16x200x400.Idx := fun a => match a with
  | ⟨0, _⟩ => ⟨(i 0).val, (i 0).isLt⟩
  | ⟨1, _⟩ => ⟨(i 3).val, (i 3).isLt⟩
  | ⟨2, _⟩ => ⟨(i 1).val - 200, by have h1 : (i 1).val < 400 := (i 1).isLt; show (i 1).val - 200 < 200; omega⟩
  | ⟨3, _⟩ => ⟨(i 2).val, (i 2).isLt⟩

/-- The top half at `(b, c, r, w)` is the input at `(b, r, w mod 200, 4c + w / 200)`: channels 4c and 4c+1 side by side. -/
theorem top_apply (x : (⟨S32x200x200x64, .f32⟩ : BufTy).Contents (Elt F)) (i : SOut.Idx) (h : (i 1).val < 200) :
    val_main_v4 (F := F) x (topIdx i h) = x (src i) := by
  rw [val_main_v4_apply, val_main_v3_apply, val_main_v2_apply, val_main_v1_apply, val_main_v0_apply]
  congr 1
  have h0 : (i 0).val < 32 := (i 0).isLt; have h1 : (i 1).val < 400 := (i 1).isLt
  have h2 : (i 2).val < 400 := (i 2).isLt; have h3 : (i 3).val < 16 := (i 3).isLt
  obtain ⟨e1, e2, e3, e4, e5⟩ := split_cols (i 0).val (i 3).val (i 1).val (i 2).val h3 h h2
  obtain ⟨f1, f2, f3, f4⟩ := merge_chan (i 0).val (i 1).val ((i 2).val % 200) (i 3).val ((i 2).val / 200) h (by omega) h3 (by omega)
  funext a; apply Fin.ext
  match a with
  | ⟨0, _⟩ => show (((((((((i 0).val * 16 + (i 3).val) * 200 + (i 1).val) * 400 + (i 2).val) / 1280000) * 200 + ((((i 0).val * 16 + (i 3).val) * 200 + (i 1).val) * 400 + (i 2).val) / 400 % 200) * 200 + ((((i 0).val * 16 + (i 3).val) * 200 + (i 1).val) * 400 + (i 2).val) % 200) * 16 + ((((i 0).val * 16 + (i 3).val) * 200 + (i 1).val) * 400 + (i 2).val) / 80000 % 16) * 4 + ((((i 0).val * 16 + (i 3).val) * 200 + (i 1).val) * 400 + (i 2).val) / 200 % 2) / 2560000 = (i 0).val; rw [e1, e2, e3, e4, e5]; exact f1
  | ⟨1, _⟩ => show (((((((((i 0).val * 16 + (i 3).val) * 200 + (i 1).val) * 400 + (i 2).val) / 1280000) * 200 + ((((i 0).val * 16 + (i 3).val) * 200 + (i 1).val) * 400 + (i 2).val) / 400 % 200) * 200 + ((((i 0).val * 16 + (i 3).val) * 200 + (i 1).val) * 400 + (i 2).val) % 200) * 16 + ((((i 0).val * 16 + (i 3).val) * 200 + (i 1).val) * 400 + (i 2).val) / 80000 % 16) * 4 + ((((i 0).val * 16 + (i 3).val) * 200 + (i 1).val) * 400 + (i 2).val) / 200 % 2) / 12800 % 200 = (i 1).val % 200; rw [e1, e2, e3, e4, e5, f2]; omega
  | ⟨2, _⟩ => show (((((((((i 0).val * 16 + (i 3).val) * 200 + (i 1).val) * 400 + (i 2).val) / 1280000) * 200 + ((((i 0).val * 16 + (i 3).val) * 200 + (i 1).val) * 400 + (i 2).val) / 400 % 200) * 200 + ((((i 0).val * 16 + (i 3).val) * 200 + (i 1).val) * 400 + (i 2).val) % 200) * 16 + ((((i 0).val * 16 + (i 3).val) * 200 + (i 1).val) * 400 + (i 2).val) / 80000 % 16) * 4 + ((((i 0).val * 16 + (i 3).val) * 200 + (i 1).val) * 400 + (i 2).val) / 200 % 2) / 64 % 200 = (i 2).val % 200; rw [e1, e2, e3, e4, e5]; exact f3
  | ⟨3, _⟩ => show (((((((((i 0).val * 16 + (i 3).val) * 200 + (i 1).val) * 400 + (i 2).val) / 1280000) * 200 + ((((i 0).val * 16 + (i 3).val) * 200 + (i 1).val) * 400 + (i 2).val) / 400 % 200) * 200 + ((((i 0).val * 16 + (i 3).val) * 200 + (i 1).val) * 400 + (i 2).val) % 200) * 16 + ((((i 0).val * 16 + (i 3).val) * 200 + (i 1).val) * 400 + (i 2).val) / 80000 % 16) * 4 + ((((i 0).val * 16 + (i 3).val) * 200 + (i 1).val) * 400 + (i 2).val) / 200 % 2) % 64 = 4 * (i 3).val + 2 * ((i 1).val / 200) + (i 2).val / 200; rw [e1, e2, e3, e4, e5, f4]; omega

/-- The bottom half at `(b, c, r, w)` is the input at `(b, r, w mod 200, 4c + 2 + w / 200)`: channels 4c+2 and 4c+3. -/
theorem bot_apply (x : (⟨S32x200x200x64, .f32⟩ : BufTy).Contents (Elt F)) (i : SOut.Idx) (h : 200 ≤ (i 1).val) :
    val_main_v7 (F := F) x (botIdx i h) = x (src i) := by
  rw [val_main_v7_apply, val_main_v6_apply, val_main_v5_apply, val_main_v1_apply, val_main_v0_apply]
  congr 1
  have h0 : (i 0).val < 32 := (i 0).isLt; have h1 : (i 1).val < 400 := (i 1).isLt
  have h2 : (i 2).val < 400 := (i 2).isLt; have h3 : (i 3).val < 16 := (i 3).isLt
  have hr : (i 1).val - 200 < 200 := by omega
  obtain ⟨e1, e2, e3, e4, e5⟩ := split_cols (i 0).val (i 3).val ((i 1).val - 200) (i 2).val h3 hr h2
  obtain ⟨f1, f2, f3, f4⟩ := merge_chan (i 0).val ((i 1).val - 200) ((i 2).val % 200) (i 3).val (2 + (i 2).val / 200) hr (by omega) h3 (by omega)
  funext a; apply Fin.ext
  match a with
  | ⟨0, _⟩ => show (((((((((i 0).val * 16 + (i 3).val) * 200 + ((i 1).val - 200)) * 400 + (i 2).val) / 1280000) * 200 + ((((i 0).val * 16 + (i 3).val) * 200 + ((i 1).val - 200)) * 400 + (i 2).val) / 400 % 200) * 200 + ((((i 0).val * 16 + (i 3).val) * 200 + ((i 1).val - 200)) * 400 + (i 2).val) % 200) * 16 + ((((i 0).val * 16 + (i 3).val) * 200 + ((i 1).val - 200)) * 400 + (i 2).val) / 80000 % 16) * 4 + (2 + ((((i 0).val * 16 + (i 3).val) * 200 + ((i 1).val - 200)) * 400 + (i 2).val) / 200 % 2)) / 2560000 = (i 0).val; rw [e1, e2, e3, e4, e5]; exact f1
  | ⟨1, _⟩ => show (((((((((i 0).val * 16 + (i 3).val) * 200 + ((i 1).val - 200)) * 400 + (i 2).val) / 1280000) * 200 + ((((i 0).val * 16 + (i 3).val) * 200 + ((i 1).val - 200)) * 400 + (i 2).val) / 400 % 200) * 200 + ((((i 0).val * 16 + (i 3).val) * 200 + ((i 1).val - 200)) * 400 + (i 2).val) % 200) * 16 + ((((i 0).val * 16 + (i 3).val) * 200 + ((i 1).val - 200)) * 400 + (i 2).val) / 80000 % 16) * 4 + (2 + ((((i 0).val * 16 + (i 3).val) * 200 + ((i 1).val - 200)) * 400 + (i 2).val) / 200 % 2)) / 12800 % 200 = (i 1).val % 200; rw [e1, e2, e3, e4, e5, f2]; omega
  | ⟨2, _⟩ => show (((((((((i 0).val * 16 + (i 3).val) * 200 + ((i 1).val - 200)) * 400 + (i 2).val) / 1280000) * 200 + ((((i 0).val * 16 + (i 3).val) * 200 + ((i 1).val - 200)) * 400 + (i 2).val) / 400 % 200) * 200 + ((((i 0).val * 16 + (i 3).val) * 200 + ((i 1).val - 200)) * 400 + (i 2).val) % 200) * 16 + ((((i 0).val * 16 + (i 3).val) * 200 + ((i 1).val - 200)) * 400 + (i 2).val) / 80000 % 16) * 4 + (2 + ((((i 0).val * 16 + (i 3).val) * 200 + ((i 1).val - 200)) * 400 + (i 2).val) / 200 % 2)) / 64 % 200 = (i 2).val % 200; rw [e1, e2, e3, e4, e5]; exact f3
  | ⟨3, _⟩ => show (((((((((i 0).val * 16 + (i 3).val) * 200 + ((i 1).val - 200)) * 400 + (i 2).val) / 1280000) * 200 + ((((i 0).val * 16 + (i 3).val) * 200 + ((i 1).val - 200)) * 400 + (i 2).val) / 400 % 200) * 200 + ((((i 0).val * 16 + (i 3).val) * 200 + ((i 1).val - 200)) * 400 + (i 2).val) % 200) * 16 + ((((i 0).val * 16 + (i 3).val) * 200 + ((i 1).val - 200)) * 400 + (i 2).val) / 80000 % 16) * 4 + (2 + ((((i 0).val * 16 + (i 3).val) * 200 + ((i 1).val - 200)) * 400 + (i 2).val) / 200 % 2)) % 64 = 4 * (i 3).val + 2 * ((i 1).val / 200) + (i 2).val / 200; rw [e1, e2, e3, e4, e5, f4]; omega

/-- The reference's result is the depth-to-space of its argument: the last transpose reads the joined array at
    `(b, c, ro, co)`, the join reads the top half for `ro < 200` and the bottom half at `ro - 200` otherwise. -/
theorem reference_eq (x : (⟨S32x200x200x64, .f32⟩ : BufTy).Contents (Elt F)) :
    val_main_v9 (F := F) x = shuffle x := by
  funext i
  rw [val_main_v9_apply, shuffle_apply]
  unfold val_main_v8
  by_cases h : (i 1).val < 200
  · rw [concatenate_pair_apply_left (2 : Fin 4) (val_main_v4 (F := F) x) (val_main_v7 (F := F) x)
      concatenates_S32x16x200x400_S32x16x200x400_S32x16x400x400_d2 (idx_main_v9 i) rfl (topIdx i h)
      (fun b => match b with | ⟨0, _⟩ => rfl | ⟨1, _⟩ => rfl | ⟨2, _⟩ => rfl | ⟨3, _⟩ => rfl)]
    exact top_apply x i h
  · have h' : 200 ≤ (i 1).val := by omega
    rw [concatenate_pair_apply_right (2 : Fin 4) (val_main_v4 (F := F) x) (val_main_v7 (F := F) x)
      concatenates_S32x16x200x400_S32x16x200x400_S32x16x400x400_d2 (idx_main_v9 i) rfl rfl (botIdx i h')
      (fun b hb => match b, hb with
        | ⟨0, _⟩, _ => rfl | ⟨1, _⟩, _ => rfl | ⟨2, _⟩, hb => absurd rfl hb | ⟨3, _⟩, _ => rfl)
      (by show (i 1).val - 200 + 200 = (i 1).val; omega)]
    exact bot_apply x i h'

end Cert.ReferenceIdeal.RefValue

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Payload.lean ====
/-
  The body's arithmetic at an index. The body multiplies the block's 20000 pixel rows (100 image rows of 200 pixels,
  64 channels each) by a 64 × 64 matrix `s` and lays the product out again as [100, 200, 64]: entry (r, p, j) of the
  product is `∑ₖ x(0, r, p, k) · s(k, j)`. Each of the four stored pieces is a band of sixteen consecutive columns of
  that product, starting at column 0, 16, 32 or 48.
-/
import proofs.«175606_j6734508720545_1_alg».proof.Proof.Gen.KernelIdeal.Skeleton
import proofs.«175606_j6734508720545_1_alg».proof.Proof.LibRowBlock
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx Cert.RowBlock

/-- The product laid out as [100, 200, 64], at (r, p, j): the sum over the 64 input channels. -/
theorem product_apply (x : Vec Ideal S1x100x200x64 .f32) (s : Vec Ideal S64x64 .f32) (r : Fin 100) (p : Fin 200) (j : Fin 64) :
    k0_pay1 x s (ix3 r p j) = ∑ k : Fin 64, x (ix4 (0 : Fin 1) r p k) * s (ix2 k j) := by
  have hrow : r.val * 200 + p.val < 20000 := by have := r.isLt; have := p.isLt; omega
  unfold k0_pay1
  rw [shapeCast_apply _ shapeCasts_S20000x64_S100x200x64 (ix3 r p j) (ix2 (⟨r.val * 200 + p.val, hrow⟩ : Fin 20000) j)
    (by rw [Shape.rowMajor_val_two, Shape.rowMajor_val_three]; rfl)]
  simp only [matmul]
  rw [Ideal.matmul_constant_zero_apply, IsRows.dot_plain_sum _ ⟨rfl, rfl, rfl, rfl, rfl, rfl⟩]
  refine Finset.sum_congr rfl fun k _ => ?_
  congr 1
  · rw [shapeCast_apply _ shapeCasts_S100x200x64_S20000x64 (ix2 (⟨r.val * 200 + p.val, hrow⟩ : Fin 20000) k) (ix3 r p k)
      (by rw [Shape.rowMajor_val_two, Shape.rowMajor_val_three]; rfl)]
    exact shapeCast_1abc_abc_apply x shapeCasts_S1x100x200x64_S100x200x64 r p k
  · rw [shapeCast_self]

/-- A stored piece is the band of sixteen columns of the product that starts at column `o`. -/
theorem band_apply (x : Vec Ideal S1x100x200x64 .f32) (s : Vec Ideal S64x64 .f32) (o : Nat) (ho : o + 16 ≤ 64)
    (hs : S100x200x64.Slices ![0, 0, o] S100x200x16) (u : Fin 1) (r : Fin 100) (p : Fin 200) (c : Fin 16) :
    shapeCast S1x100x200x16 (extractStridedSlice S100x200x16 ![0, 0, o] (k0_pay1 x s) hs) shapeCasts_S100x200x16_S1x100x200x16 (ix4 u r p c)
      = ∑ k : Fin 64, x (ix4 (0 : Fin 1) r p k) * s (ix2 k (⟨o + c.val, by have := c.isLt; omega⟩ : Fin 64)) := by
  rw [shapeCast_abc_1abc_apply _ shapeCasts_S100x200x16_S1x100x200x16 u r p c]
  rw [extractStridedSlice_apply ![0, 0, o] (k0_pay1 x s) hs (ix3 r p c) (ix3 r p (⟨o + c.val, by have := c.isLt; omega⟩ : Fin 64))
    (fun a => match a with
      | ⟨0, _⟩ => by show r.val = 0 + r.val; omega
      | ⟨1, _⟩ => by show p.val = 0 + p.val; omega
      | ⟨2, _⟩ => rfl)]
  exact product_apply x s r p _

theorem pay2_apply (x : Vec Ideal S1x100x200x64 .f32) (s : Vec Ideal S64x64 .f32) (u : Fin 1) (r : Fin 100) (p : Fin 200) (c : Fin 16) :
    k0_pay2 x s (ix4 u r p c) = ∑ k : Fin 64, x (ix4 (0 : Fin 1) r p k) * s (ix2 k (⟨0 + c.val, by have := c.isLt; omega⟩ : Fin 64)) :=
  band_apply x s 0 (by omega) slices_S100x200x64_o0_0_0_S100x200x16 u r p c

theorem pay3_apply (x : Vec Ideal S1x100x200x64 .f32) (s : Vec Ideal S64x64 .f32) (u : Fin 1) (r : Fin 100) (p : Fin 200) (c : Fin 16) :
    k0_pay3 x s (ix4 u r p c) = ∑ k : Fin 64, x (ix4 (0 : Fin 1) r p k) * s (ix2 k (⟨16 + c.val, by have := c.isLt; omega⟩ : Fin 64)) :=
  band_apply x s 16 (by omega) slices_S100x200x64_o0_0_16_S100x200x16 u r p c

theorem pay4_apply (x : Vec Ideal S1x100x200x64 .f32) (s : Vec Ideal S64x64 .f32) (u : Fin 1) (r : Fin 100) (p : Fin 200) (c : Fin 16) :
    k0_pay4 x s (ix4 u r p c) = ∑ k : Fin 64, x (ix4 (0 : Fin 1) r p k) * s (ix2 k (⟨32 + c.val, by have := c.isLt; omega⟩ : Fin 64)) :=
  band_apply x s 32 (by omega) slices_S100x200x64_o0_0_32_S100x200x16 u r p c

theorem pay5_apply (x : Vec Ideal S1x100x200x64 .f32) (s : Vec Ideal S64x64 .f32) (u : Fin 1) (r : Fin 100) (p : Fin 200) (c : Fin 16) :
    k0_pay5 x s (ix4 u r p c) = ∑ k : Fin 64, x (ix4 (0 : Fin 1) r p k) * s (ix2 k (⟨48 + c.val, by have := c.isLt; omega⟩ : Fin 64)) :=
  band_apply x s 48 (by omega) slices_S100x200x64_o0_0_48_S100x200x16 u r p c

end Cert.KernelIdeal.Payload

end
-- ==== Proof.Blocks.lean ====
/-
  What one grid point leaves in its output block [1, 100, 400, 16]. A point of the upper half of the image (h = 0) stores
  columns 0–15 of the product into pixels 0–199 of each row and columns 16–31 into pixels 200–399; a point of the lower half
  (h = 1) stores columns 32–47 and 48–63 in the same two places. So entry (0, r, w, c) of the block is column
  (2h + w / 200) · 16 + c of the product at pixel row (r, w mod 200): the sum over k of x(0, r, w mod 200, k) · s(k, that column).
-/
import proofs.«175606_j6734508720545_1_alg».proof.Proof.Gen.KernelIdeal.Frame
import proofs.«175606_j6734508720545_1_alg».proof.Proof.Payload

set_option maxRecDepth 16384

noncomputable section

namespace Cert.KernelIdeal.Blocks

open Cert.KernelIdeal Cert.KernelIdeal.Gen Cert.KernelIdeal.Payload Idealize.ShloMosaic Idealize.ShloMosaic.TcCoe Idealize.ShloMosaic.Tactic Idealize.ShloMosaic.ValueIdx Idealize.SL.Sem

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The block a point of half `h` leaves, as a function of the pixel block `x` and the matrix `s`. -/
def blockOf (h : Fin 2) (x : Vec Ideal S1x100x200x64 .f32) (s : Vec Ideal S64x64 .f32) : S1x100x400x16.Idx → EReal := fun y =>
  ∑ k : Fin 64, x (ix4 (0 : Fin 1) (y 1) (⟨(y 2).val % 200, Nat.mod_lt _ (by norm_num)⟩ : Fin 200) k)
    * s (ix2 k (⟨(2 * h.val + (y 2).val / 200) * 16 + (y 3).val, by
        have h2 : (y 2).val < 400 := (y 2).isLt; have h3 : (y 3).val < 16 := (y 3).isLt; have hh := h.isLt; omega⟩ : Fin 64))

/-- The piece stored at pixels 0–199: a band of sixteen columns starting at column `o = 2h · 16`. -/
theorem left_piece (h : Fin 2) (x : Vec Ideal S1x100x200x64 .f32) (s : Vec Ideal S64x64 .f32) (pay : Vec Ideal S1x100x200x16 .f32)
    (o : Nat) (ho : o = 2 * h.val * 16) (hb : ∀ c : Fin 16, o + c.val < 64)
    (hpay : ∀ (u : Fin 1) (r : Fin 100) (p : Fin 200) (c : Fin 16),
      pay (ix4 u r p c) = ∑ k : Fin 64, x (ix4 (0 : Fin 1) r p k) * s (ix2 k (⟨o + c.val, hb c⟩ : Fin 64)))
    (z : S1x100x200x16.Idx) :
    pay z = blockOf h x s ((Rect.unit (s := S1x100x400x16) ![0, 0, 0, 0] S1x100x200x16.size inb_S1x100x400x16_S1x100x200x16_0_0_0_0).emb z) := by
  obtain ⟨u, r, p, c, rfl⟩ : ∃ (u : Fin 1) (r : Fin 100) (p : Fin 200) (c : Fin 16), z = ix4 u r p c := ⟨z 0, z 1, z 2, z 3, eq_ix4 z⟩
  rw [hpay]
  unfold blockOf
  have h2 : p.val < 200 := p.isLt
  refine Finset.sum_congr rfl fun k _ => ?_
  congr 2
  · funext a; apply Fin.ext
    match a with
    | ⟨0, _⟩ => rfl
    | ⟨1, _⟩ => show r.val = 0 + 1 * r.val; omega
    | ⟨2, _⟩ => show p.val = (0 + 1 * p.val) % 200; omega
    | ⟨3, _⟩ => rfl
  · funext a; apply Fin.ext
    match a with
    | ⟨0, _⟩ => rfl
    | ⟨1, _⟩ => show o + c.val = (2 * h.val + (0 + 1 * p.val) / 200) * 16 + (0 + 1 * c.val); omega

/-- The piece stored at pixels 200–399: the band starting at column `o = (2h + 1) · 16`. -/
theorem right_piece (h : Fin 2) (x : Vec Ideal S1x100x200x64 .f32) (s : Vec Ideal S64x64 .f32) (pay : Vec Ideal S1x100x200x16 .f32)
    (o : Nat) (ho : o = (2 * h.val + 1) * 16) (hb : ∀ c : Fin 16, o + c.val < 64)
    (hpay : ∀ (u : Fin 1) (r : Fin 100) (p : Fin 200) (c : Fin 16),
      pay (ix4 u r p c) = ∑ k : Fin 64, x (ix4 (0 : Fin 1) r p k) * s (ix2 k (⟨o + c.val, hb c⟩ : Fin 64)))
    (z : S1x100x200x16.Idx) :
    pay z = blockOf h x s ((Rect.unit (s := S1x100x400x16) ![0, 0, 200, 0] S1x100x200x16.size inb_S1x100x400x16_S1x100x200x16_0_0_200_0).emb z) := by
  obtain ⟨u, r, p, c, rfl⟩ : ∃ (u : Fin 1) (r : Fin 100) (p : Fin 200) (c : Fin 16), z = ix4 u r p c := ⟨z 0, z 1, z 2, z 3, eq_ix4 z⟩
  rw [hpay]
  unfold blockOf
  have h2 : p.val < 200 := p.isLt
  refine Finset.sum_congr rfl fun k _ => ?_
  congr 2
  · funext a; apply Fin.ext
    match a with
    | ⟨0, _⟩ => rfl
    | ⟨1, _⟩ => show r.val = 0 + 1 * r.val; omega
    | ⟨2, _⟩ => show p.val = (200 + 1 * p.val) % 200; omega
    | ⟨3, _⟩ => rfl
  · funext a; apply Fin.ext
    match a with
    | ⟨0, _⟩ => rfl
    | ⟨1, _⟩ => show o + c.val = (2 * h.val + (200 + 1 * p.val) / 200) * 16 + (0 + 1 * c.val); omega

/-- A point of the upper half leaves `blockOf 0`. -/
theorem outA_eq (c : Dev nD) (i : grid0.Coords) (arg3 : Memref sig .tc .vmem S1x100x200x64 .f32) (harg3 : arg3.IsWhole) (arg4 : Memref sig .tc .vmem S64x64 .f32) (harg4 : arg4.IsWhole) (arg5 : Memref sig .tc .vmem S1x100x400x16 .f32) (harg5 : arg5.IsWhole) (hc0 : cond0_0 i) (hc1 : ¬cond0_1 i)
    (x : Vec Ideal S1x100x200x64 .f32) (s : Vec Ideal S64x64 .f32) :
    out0_A_2 c i arg3 harg3 arg4 harg4 arg5 harg5 hc0 hc1 x s = blockOf 0 x s := by
  unfold out0_A_2
  rw [View.read_writes_eq_canon _ _ _ (cover0_A_2 c i arg3 harg3 arg4 harg4 arg5 harg5 hc0 hc1 x s)]
  funext y
  refine View.canon_apply_of_pieces (blockOf 0 x s) _ ?_ y (cover0_A_2 c i arg3 harg3 arg4 harg4 arg5 harg5 hc0 hc1 x s y)
  unfold kernelRun0_A
  dsimp only
  sl_unfold_words
  simp only [View.readAt_eq_ld, harg3.read_unread, harg4.read_unread, View.ld_unit_zero (S := S1x100x200x64) hz4, View.ld_unit_zero (S := S64x64) hz2]
  intro p hp z
  simp only [List.mem_cons, List.mem_singleton, List.not_mem_nil, or_false] at hp
  rcases hp with rfl | rfl
  · exact right_piece 0 x s (k0_pay3 x s) 16 rfl (fun c => by have := c.isLt; omega) (pay3_apply x s) z
  · exact left_piece 0 x s (k0_pay2 x s) 0 rfl (fun c => by have := c.isLt; omega) (pay2_apply x s) z

/-- A point of the lower half leaves `blockOf 1`. -/
theorem outB_eq (c : Dev nD) (i : grid0.Coords) (arg3 : Memref sig .tc .vmem S1x100x200x64 .f32) (harg3 : arg3.IsWhole) (arg4 : Memref sig .tc .vmem S64x64 .f32) (harg4 : arg4.IsWhole) (arg5 : Memref sig .tc .vmem S1x100x400x16 .f32) (harg5 : arg5.IsWhole) (hc0 : ¬cond0_0 i) (hc1 : cond0_1 i)
    (x : Vec Ideal S1x100x200x64 .f32) (s : Vec Ideal S64x64 .f32) :
    out0_B_2 c i arg3 harg3 arg4 harg4 arg5 harg5 hc0 hc1 x s = blockOf 1 x s := by
  unfold out0_B_2
  rw [View.read_writes_eq_canon _ _ _ (cover0_B_2 c i arg3 harg3 arg4 harg4 arg5 harg5 hc0 hc1 x s)]
  funext y
  refine View.canon_apply_of_pieces (blockOf 1 x s) _ ?_ y (cover0_B_2 c i arg3 harg3 arg4 harg4 arg5 harg5 hc0 hc1 x s y)
  unfold kernelRun0_B
  dsimp only
  sl_unfold_words
  simp only [View.readAt_eq_ld, harg3.read_unread, harg4.read_unread, View.ld_unit_zero (S := S1x100x200x64) hz4, View.ld_unit_zero (S := S64x64) hz2]
  intro p hp z
  simp only [List.mem_cons, List.mem_singleton, List.not_mem_nil, or_false] at hp
  rcases hp with rfl | rfl
  · exact right_piece 1 x s (k0_pay5 x s) 48 rfl (fun c => by have := c.isLt; omega) (pay5_apply x s) z
  · exact left_piece 1 x s (k0_pay4 x s) 32 rfl (fun c => by have := c.isLt; omega) (pay4_apply x s) z

end Cert.KernelIdeal.Blocks

end
-- ==== Proof.Table.lean ====
/-
  The 64 × 64 matrix the kernel multiplies by. The program builds it on the host, from no input: for each row k the column
  (k mod 4) · 16 + k / 4 (jnp's remainder and floor division of an iota, with their sign corrections), then the comparison of
  that column number with a column iota, converted to a float. So row k holds a single one, in column (k mod 4) · 16 + k / 4,
  and zeros elsewhere: a permutation matrix. The comparison's result is a closed term over machine integers; its 4096
  entries are evaluated, and the conversion of a bit to an extended real is the bit's number.
-/
import proofs.«175606_j6734508720545_1_alg».proof.Proof.Gen.KernelIdeal.Frame
import Idealize.ShloMosaic.Lib.StableHlo.Run
import Idealize.ShloMosaic.Lib.ValueIdx
import Idealize.ShloMosaic.PureOps.Ideal

noncomputable section

namespace Cert.KernelIdeal.Table

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- The matrix as the kernel region finds it, under its literal type. -/
abbrev tbl (c : Dev nD) : Vec Ideal S64x64 .f32 := V m c main_v6

/-- The matrix as the kernel region finds it is the conversion of a matrix of bits whose entry (k, j) is set exactly when
    j = (k mod 4) · 16 + k / 4. -/
theorem mask_exists (c : Dev nD) : ∃ M : IVec S64x64 1,
    (∀ k j : Fin 64, M (ix2 k j) = if j.val = (k.val % 4) * 16 + k.val / 4 then 1#1 else 0#1)
    ∧ tbl m c = uitofp (F := Ideal) .f32 M := by
  apply Exists.intro
  refine And.intro ?_ ?_
  swap
  · show V m c main_v6 = _
    dsimp only [Gen.V]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
    simp only [TRef.ofBuf, TRef.toBuf, cast_eq]
    rfl
  · decide +kernel

/-- Entry (k, j) of the matrix: one if j = (k mod 4) · 16 + k / 4, zero otherwise. -/
theorem table_apply (c : Dev nD) (k j : Fin 64) :
    tbl m c (ix2 k j) = if j.val = (k.val % 4) * 16 + k.val / 4 then (1 : EReal) else 0 := by
  obtain ⟨M, hM, hV⟩ := mask_exists m c
  rw [hV]
  show (((M (ix2 k j)).toNat : ℝ) : EReal) = _
  rw [hM k j]
  split
  · show (((1#1 : BitVec 1).toNat : ℝ) : EReal) = 1
    norm_num
  · show (((0#1 : BitVec 1).toNat : ℝ) : EReal) = 0
    norm_num

end Cert.KernelIdeal.Table

end
-- ==== Proof.Whole.lean ====
/-
  From one grid point to the whole array. Point t = (b, rt, h) of the grid 32 × 2 × 2 reads rows 100·rt … 100·rt + 99 of image b
  (all 200 pixels, all 64 channels) and writes rows 100·(2h + rt) … of output image b (all 400 pixels, all 16 channels). With the
  permutation matrix for `s`, the sum over k in the block keeps the single term whose row of the matrix has its one in the wanted
  column: column (2h + q)·16 + c is hit by row k = 4c + 2h + q only. So the block's entry (0, r, w, c) is the input at
  (b, 100·rt + r, w mod 200, 4c + 2h + w / 200), which is the depth-to-space of the input read at the block's place in the
  output. The 128 blocks tile the output, so the output array ends as the depth-to-space of the input.
-/
import proofs.«175606_j6734508720545_1_alg».proof.Proof.Gen.KernelIdeal.Value
import proofs.«175606_j6734508720545_1_alg».proof.Proof.Blocks
import proofs.«175606_j6734508720545_1_alg».proof.Proof.Table
import proofs.«175606_j6734508720545_1_alg».proof.Proof.Shuffle

set_option maxRecDepth 16384

noncomputable section

namespace Cert.KernelIdeal.Whole

open Cert.KernelIdeal Cert.KernelIdeal.Gen Cert.KernelIdeal.Blocks Cert.KernelIdeal.Table Cert.Shuffle
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The pixel block and the matrix a point works on, under their literal types. -/
abbrev xblk (c : Dev nD) (t : Fin cfg0.N) : Vec Ideal S1x100x200x64 .f32 := iblk m c 0 t
abbrev sblk (c : Dev nD) (t : Fin cfg0.N) : Vec Ideal S64x64 .f32 := iblk m c 1 t

/-- The block indices of the three windows at every grid point: the input and the output are at the same image; the
    output's row block is two times the half plus the input's row block; every other block index is zero. -/
theorem idx_facts : ∀ t : Fin cfg0.N,
    win0_0.index t (0 : Fin 4) = win0_2.index t (0 : Fin 4) ∧ win0_2.index t (0 : Fin 4) < 32
    ∧ win0_2.index t (1 : Fin 4) = 2 * (t.val % 2) + win0_0.index t (1 : Fin 4) ∧ win0_0.index t (1 : Fin 4) ≤ 1
    ∧ win0_0.index t (2 : Fin 4) = 0 ∧ win0_0.index t (3 : Fin 4) = 0
    ∧ win0_2.index t (2 : Fin 4) = 0 ∧ win0_2.index t (3 : Fin 4) = 0
    ∧ win0_1.index t (0 : Fin 2) = 0 ∧ win0_1.index t (1 : Fin 2) = 0 :=
  (by decide +kernel : ∀ t : Fin grid0.N, _)

/-- Every row block of every output image is some point's. -/
theorem idx_onto : ∀ (q0 : Fin 32) (q1 : Fin 4), ∃ t : Fin cfg0.N, win0_2.index t = ![q0.val, q1.val, 0, 0] :=
  (by decide +kernel : ∀ (q0 : Fin 32) (q1 : Fin 4), ∃ t : Fin grid0.N, win0_2.index t = ![q0.val, q1.val, 0, 0])

/-- The pixel block read where the window puts it in the input array. -/
theorem xblk_apply (c : Dev nD) (t : Fin cfg0.N) (r : Fin 100) (p : Fin 200) (k : Fin 64) (i : S32x200x200x64.Idx)
    (h0 : (i 0).val = win0_0.index t (0 : Fin 4)) (h1 : (i 1).val = win0_0.index t (1 : Fin 4) * 100 + r.val)
    (h2 : (i 2).val = p.val) (h3 : (i 3).val = k.val) :
    xblk m c t (ix4 (0 : Fin 1) r p k) = V m c main_arg0 i := by
  obtain ⟨e0, e1, e2, e3, e4, e5, e6, e7, e8, e9⟩ := idx_facts t
  show V m c main_arg0 (((cfg0.win 0).blk t).view.emb (ix4 (0 : Fin 1) r p k)) = V m c main_arg0 i
  congr 1
  funext a; apply Fin.ext
  match a with
  | ⟨0, _⟩ => show win0_0.index t (0 : Fin 4) * 1 + 1 * (0 : Fin 1).val = (i 0).val; rw [h0]; show _ * 1 + 1 * 0 = _; omega
  | ⟨1, _⟩ => show win0_0.index t (1 : Fin 4) * 100 + 1 * r.val = (i 1).val; omega
  | ⟨2, _⟩ => show win0_0.index t (2 : Fin 4) * 200 + 1 * p.val = (i 2).val; omega
  | ⟨3, _⟩ => show win0_0.index t (3 : Fin 4) * 64 + 1 * k.val = (i 3).val; omega

/-- The matrix's block is the whole matrix. -/
theorem sblk_apply (c : Dev nD) (t : Fin cfg0.N) (k j : Fin 64) :
    sblk m c t (ix2 k j) = tbl m c (ix2 k j) := by
  obtain ⟨e0, e1, e2, e3, e4, e5, e6, e7, e8, e9⟩ := idx_facts t
  show tbl m c (((cfg0.win 1).blk t).view.emb (ix2 k j)) = tbl m c (ix2 k j)
  congr 1
  funext a; apply Fin.ext
  match a with
  | ⟨0, _⟩ => show win0_1.index t (0 : Fin 2) * 64 + 1 * k.val = k.val; omega
  | ⟨1, _⟩ => show win0_1.index t (1 : Fin 2) * 64 + 1 * j.val = j.val; omega

/-- What a point of half `h` leaves in its block, entry by entry, is the depth-to-space of the input at the block's place. -/
theorem point_eq (c : Dev nD) (t : Fin cfg0.N) (h : Fin 2) (hh : h.val = t.val % 2) (j : S1x100x400x16.Idx) :
    blockOf h (xblk m c t) (sblk m c t) j = shuffle (V m c main_arg0) (((cfg0.win 2).blk t).view.emb j) := by
  obtain ⟨e0, e1, e2, e3, e4, e5, e6, e7, e8, e9⟩ := idx_facts t
  have j1 : (j 1).val < 100 := (j 1).isLt
  have j2 : (j 2).val < 400 := (j 2).isLt
  have j3 : (j 3).val < 16 := (j 3).isLt
  have hh2 := h.isLt
  have hk0 : 4 * (j 3).val + 2 * h.val + (j 2).val / 200 < 64 := by omega
  unfold blockOf
  rw [Finset.sum_eq_single (⟨4 * (j 3).val + 2 * h.val + (j 2).val / 200, hk0⟩ : Fin 64)]
  · rw [sblk_apply, table_apply, if_pos (by show (2 * h.val + (j 2).val / 200) * 16 + (j 3).val = (4 * (j 3).val + 2 * h.val + (j 2).val / 200) % 4 * 16 + (4 * (j 3).val + 2 * h.val + (j 2).val / 200) / 4; omega), mul_one, shuffle_apply]
    refine xblk_apply m c t (j 1) _ _ _ ?_ ?_ ?_ ?_
    · show (win0_2.index t (0 : Fin 4) * 1 + 1 * (j 0).val) = win0_0.index t (0 : Fin 4)
      have : (j 0).val < 1 := (j 0).isLt
      omega
    · show (win0_2.index t (1 : Fin 4) * 100 + 1 * (j 1).val) % 200 = win0_0.index t (1 : Fin 4) * 100 + (j 1).val
      omega
    · show (win0_2.index t (2 : Fin 4) * 400 + 1 * (j 2).val) % 200 = (j 2).val % 200
      omega
    · show 4 * (win0_2.index t (3 : Fin 4) * 16 + 1 * (j 3).val) + 2 * ((win0_2.index t (1 : Fin 4) * 100 + 1 * (j 1).val) / 200) + (win0_2.index t (2 : Fin 4) * 400 + 1 * (j 2).val) / 200
        = 4 * (j 3).val + 2 * h.val + (j 2).val / 200
      omega
  · intro k _ hk
    rw [sblk_apply, table_apply, if_neg ?_, mul_zero]
    intro e
    apply hk
    apply Fin.ext
    have hkl := k.isLt
    show k.val = 4 * (j 3).val + 2 * h.val + (j 2).val / 200
    have e' : (2 * h.val + (j 2).val / 200) * 16 + (j 3).val = k.val % 4 * 16 + k.val / 4 := e
    omega
  · intro hn; exact absurd (Finset.mem_univ _) hn

/-- WHAT POINT `t` WRITES BACK is block `t` of the depth-to-space of the input array. -/
theorem flushed_eq (c : Dev nD) (t : Fin cfg0.N) :
    (dats m 0 c).flushed 2 t = ((cfg0.win 2).blk t).view.read (Elt Ideal) (shuffle (V m c main_arg0)) := by
  by_cases h0 : t.val % 2 = 0
  · have h1 : ¬t.val % 2 = 1 := by omega
    refine (Value.flushed2_A m c t h0 h1).trans ?_
    refine (congrArg ((cfg0.win 2).cut (grid0.coords t)) (outA_eq c (grid0.coords t) (ms0_0 t) (hs0_0 t) (ms0_1 t) (hs0_1 t) (ms0_2 t) (hs0_2 t)
      ((hcond0_0 t).mpr h0) (fun h => h1 ((hcond0_1 t).mp h)) (xblk m c t) (sblk m c t))).trans ?_
    funext j
    exact point_eq m c t 0 (by show (0 : ℕ) = _; omega) j
  · have h1 : t.val % 2 = 1 := by omega
    refine (Value.flushed2_B m c t h0 h1).trans ?_
    refine (congrArg ((cfg0.win 2).cut (grid0.coords t)) (outB_eq c (grid0.coords t) (ms0_0 t) (hs0_0 t) (ms0_1 t) (hs0_1 t) (ms0_2 t) (hs0_2 t)
      (fun h => h0 ((hcond0_0 t).mp h)) ((hcond0_1 t).mpr h1) (xblk m c t) (sblk m c t))).trans ?_
    funext j
    exact point_eq m c t 1 (by show (1 : ℕ) = _; omega) j

/-- An index of the output array is in point `t`'s block iff each coordinate is in the block's range on its axis. -/
theorem mem_blk (t : Fin cfg0.N) (i : S32x400x400x16.Idx) :
    i ∈ ((cfg0.win 2).blk t).view.set ↔ ∀ a : Fin 4, win0_2.index t a * S1x100x400x16.size a ≤ (i a).val ∧ (i a).val < win0_2.index t a * S1x100x400x16.size a + S1x100x400x16.size a := by
  show i ∈ ((View.whole main_v7).slice (win0_2.rect t)).set ↔ _
  rw [View.set_slice_whole, Rect.mem_set_unit]
  exact Iff.rfl

/-- The blocks tile the output: every index is in the block of the point with its image and its row block. -/
theorem cover (i : S32x400x400x16.Idx) :
    ∃ t : Fin cfg0.N, (cfg0.win 2).flush t = true ∧ i ∈ ((cfg0.win 2).blk t).view.set := by
  have hi0 : (i 0).val < 32 := (i 0).isLt
  have hi1 : (i 1).val < 400 := (i 1).isLt
  have hi2 : (i 2).val < 400 := (i 2).isLt
  have hi3 : (i 3).val < 16 := (i 3).isLt
  obtain ⟨t, ht⟩ := idx_onto ⟨(i 0).val, hi0⟩ ⟨(i 1).val / 100, by omega⟩
  have q0 : win0_2.index t (0 : Fin 4) = (i 0).val := congrFun ht 0
  have q1 : win0_2.index t (1 : Fin 4) = (i 1).val / 100 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 100 ≤ (i 1).val ∧ (i 1).val < win0_2.index t (1 : Fin 4) * 100 + 100; omega
  | ⟨2, _⟩ => show win0_2.index t (2 : Fin 4) * 400 ≤ (i 2).val ∧ (i 2).val < win0_2.index t (2 : Fin 4) * 400 + 400; omega
  | ⟨3, _⟩ => show win0_2.index t (3 : Fin 4) * 16 ≤ (i 3).val ∧ (i 3).val < win0_2.index t (3 : Fin 4) * 16 + 16; omega

/-- THE OUTPUT ARRAY after the run: the depth-to-space of the input array as launched. -/
theorem final (c : Dev nD) : (dats m 0 c).arrAt 2 cfg0.N = shuffle (m ((c : Thread nD τ).loc main_arg0)) := by
  rw [(dats m 0 c).arrAt_eq_of_cover 2 (shuffle (V m c main_arg0)) (fun t _ => flushed_eq m c t) cover, V_main_arg0]

/-- The kernel's run: the result array is the depth-to-space of the argument, the argument unchanged. -/
theorem run : θ_run defs (onTc (τ := τ) (main (F := Ideal))) ⟨m, fun _ => 0, ρ⟩ fun r => ∀ c : Dev nD,
      r.2.mem ((c : Thread nD τ).loc main_v7) = shuffle (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  Depth-to-space (pixel shuffle, block size two) over f32[32, 200, 200, 64] → f32[32, 400, 400, 16], a Pallas kernel against a
  jnp reference, equal over the extended reals.

  The reference rearranges: reshape the 64 channels as 16 × 4, bring the channel pair to the front, take channels {4c, 4c+1}
  and {4c+2, 4c+3} apart, lay each pair side by side along the pixels of a row (rows of 400), put the second pair's rows
  under the first's (400 rows), and bring the 16 channels last. The result at (b, ro, co, c) is the input at
  (b, ro mod 200, co mod 200, 4c + 2 (ro / 200) + co / 200).

  The kernel gets the same rearrangement from a matrix product: on a grid of 32 images × 2 row tiles × 2 halves it multiplies the
  tile's 20000 pixel rows by the 64 × 64 permutation matrix whose row k has its one in column (k mod 4) · 16 + k / 4, so that
  column (2h + q) · 16 + c of the product is channel 4c + 2h + q of the pixel; the point of half h stores the column bands
  2h and 2h + 1 side by side in rows 100 (2h + rt) … of the output image. A product with a permutation matrix is exact on
  the extended reals: every term of the sum but one is a product with zero, and the remaining one is a product with one. No
  law that needs finite inputs is used, so the precondition is never opened.

  The three frames are the generated ones (the reference's is its generated run with the result dropped); the ideal pass rewrote
  nothing, so the kernel is its own idealization; the value claim sets the kernel's run (Proof/Whole.lean) beside the reference's
  generated run read as the depth-to-space (Proof/Shuffle.lean).
-/
import proofs.«175606_j6734508720545_1_alg».proof.Defs
import proofs.«175606_j6734508720545_1_alg».proof.Proof.Gen.Kernel
import proofs.«175606_j6734508720545_1_alg».proof.Proof.Gen.Kernel.Skeleton
import proofs.«175606_j6734508720545_1_alg».proof.Proof.Gen.Kernel.Launch
import proofs.«175606_j6734508720545_1_alg».proof.Proof.Gen.Kernel.Points
import proofs.«175606_j6734508720545_1_alg».proof.Proof.Gen.Kernel.Frame
import proofs.«175606_j6734508720545_1_alg».proof.Proof.Gen.KernelIdeal
import proofs.«175606_j6734508720545_1_alg».proof.Proof.Gen.KernelIdeal.Skeleton
import proofs.«175606_j6734508720545_1_alg».proof.Proof.Gen.KernelIdeal.Launch
import proofs.«175606_j6734508720545_1_alg».proof.Proof.Gen.KernelIdeal.Points
import proofs.«175606_j6734508720545_1_alg».proof.Proof.Gen.KernelIdeal.Frame
import proofs.«175606_j6734508720545_1_alg».proof.Proof.Gen.ReferenceIdeal
import proofs.«175606_j6734508720545_1_alg».proof.Proof.Gen.Pre_finite_inputs
import proofs.«175606_j6734508720545_1_alg».proof.Proof.Gen.KernelIdeal.Value
import proofs.«175606_j6734508720545_1_alg».proof.Proof.Gen.ReferenceIdeal.Run
import proofs.«175606_j6734508720545_1_alg».proof.Proof.Gen.ReferenceIdeal.Read
import proofs.«175606_j6734508720545_1_alg».proof.Proof.Shuffle
import proofs.«175606_j6734508720545_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the depth-to-space of the argument they agree on. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
